-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x2048 : Shape := ⟨2, ![4096, 2048]⟩
abbrev S4096x32 : Shape := ⟨2, ![4096, 32]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x32 : S_.BroadcastsInDim S4096x32 (![] : Fin 0 → Fin S4096x32.rank)
  reducesTo_S4096x32_S_d0_1 : S4096x32.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x2048x4096 .f32) (main_arg1 : IVec S4096x2048 32) (main_arg2 : FVec F S4096x32 .f32) (main_arg3 : FVec F S4096x32 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x32 .f32 := Host.absf main_arg2
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  let main_v9 : FVec F S4096x32 .f32 := Host.absf main_arg3
  let main_cst_2 : FVec F S_ .f32 := constant S_ .f32 0x7F800000#32
  let main_v10 : FVec F S4096x32 .f32 := broadcastInDim S4096x32 ![] bcast_S_S4096x32 main_cst_2
  let main_v11 : IVec S4096x32 1 := cmpf .olt main_v9 main_v10
  let main_c_3 : IVec S_ 1 := constantI S_ 1 1#1
  let main_v12 : IVec S_ 1 := (fun x v => Host.reduce IntOp.andi x v reducesTo_S4096x32_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x2048x4096 : Shape := ⟨3, ![4, 2048, 4096]⟩
abbrev S4096x2048 : Shape := ⟨2, ![4096, 2048]⟩
abbrev S4096x32 : Shape := ⟨2, ![4096, 32]⟩
abbrev S4096 : Shape := ⟨1, ![4096]⟩
abbrev S8192x4096 : Shape := ⟨2, ![8192, 4096]⟩
abbrev S_ : Shape := ⟨0, ![]⟩
abbrev S4096x2048x1 : Shape := ⟨3, ![4096, 2048, 1]⟩
abbrev S4096x2048x2 : Shape := ⟨3, ![4096, 2048, 2]⟩
abbrev S4096x4096 : Shape := ⟨2, ![4096, 4096]⟩
abbrev S4096x32x128 : Shape := ⟨3, ![4096, 32, 128]⟩
abbrev S4096x32x1 : Shape := ⟨3, ![4096, 32, 1]⟩
abbrev S1x4096 : Shape := ⟨2, ![1, 4096]⟩
abbrev S1024x4096 : Shape := ⟨2, ![1024, 4096]⟩
abbrev S512x4096 : Shape := ⟨2, ![512, 4096]⟩
abbrev S1x512 : Shape := ⟨2, ![1, 512]⟩
abbrev S1024x512 : Shape := ⟨2, ![1024, 512]⟩

abbrev nBuf : Space → Nat
  | .hbm => 36
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S4096x2048, .i32⟩
  | .hbm, ⟨2, _⟩ => ⟨S4096x32, .f32⟩
  | .hbm, ⟨3, _⟩ => ⟨S4096x32, .f32⟩
  | .hbm, ⟨4, _⟩ => ⟨S4096, .f32⟩
  | .hbm, ⟨5, _⟩ => ⟨S8192x4096, .f32⟩
  | .hbm, ⟨6, _⟩ => ⟨S8192x4096, .bf16⟩
  | .hbm, ⟨7, _⟩ => ⟨S_, .i32⟩
  | .hbm, ⟨8, _⟩ => ⟨S4096x2048, .i32⟩
  | .hbm, ⟨9, _⟩ => ⟨S4096x2048, .i32⟩
  | .hbm, ⟨10, _⟩ => ⟨S_, .i32⟩
  | .hbm, ⟨11, _⟩ => ⟨S4096x2048, .i32⟩
  | .hbm, ⟨12, _⟩ => ⟨S4096x2048, .i32⟩
  | .hbm, ⟨13, _⟩ => ⟨S_, .i32⟩
  | .hbm, ⟨14, _⟩ => ⟨S4096x2048, .i32⟩
  | .hbm, ⟨15, _⟩ => ⟨S4096x2048, .i32⟩
  | .hbm, ⟨16, _⟩ => ⟨S_, .i32⟩
  | .hbm, ⟨17, _⟩ => ⟨S4096x2048, .i32⟩
  | .hbm, ⟨18, _⟩ => ⟨S4096x2048, .i32⟩
  | .hbm, ⟨19, _⟩ => ⟨S_, .i32⟩
  | .hbm, ⟨20, _⟩ => ⟨S4096x2048, .i32⟩
  | .hbm, ⟨21, _⟩ => ⟨S4096x2048, .i32⟩
  | .hbm, ⟨22, _⟩ => ⟨S4096x2048x1, .i32⟩
  | .hbm, ⟨23, _⟩ => ⟨S4096x2048x1, .i32⟩
  | .hbm, ⟨24, _⟩ => ⟨S4096x2048x2, .i32⟩
  | .hbm, ⟨25, _⟩ => ⟨S4096x4096, .i32⟩
  | .hbm, ⟨26, _⟩ => ⟨S4096x4096, .f32⟩
  | .hbm, ⟨27, _⟩ => ⟨S4096x32x128, .f32⟩
  | .hbm, ⟨28, _⟩ => ⟨S4096x32x1, .f32⟩
  | .hbm, ⟨29, _⟩ => ⟨S4096x32x128, .f32⟩
  | .hbm, ⟨30, _⟩ => ⟨S4096x32x128, .f32⟩
  | .hbm, ⟨31, _⟩ => ⟨S4096x4096, .f32⟩
  | .hbm, ⟨32, _⟩ => ⟨S4096x4096, .bf16⟩
  | .hbm, ⟨33, _⟩ => ⟨S1x4096, .f32⟩
  | .hbm, ⟨34, _⟩ => ⟨S8192x4096, .f32⟩
  | .hbm, ⟨35, _⟩ => ⟨S4x2048x4096, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_c_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x2048x4096_S8192x4096 : S4x2048x4096.ShapeCasts S8192x4096
  bitsLt_bf16_f32 : FTy.bits .bf16 < FTy.bits .f32
  bcast_S_S4096x2048 : S_.BroadcastsInDim S4096x2048 (![] : Fin 0 → Fin S4096x2048.rank)
  bcast_S4096x2048_S4096x2048x1_0_1 : S4096x2048.BroadcastsInDim S4096x2048x1 (![0, 1] : Fin 2 → Fin S4096x2048x1.rank)
  concatenates_S4096x2048x1_S4096x2048x1_S4096x2048x2_d2 : Shape.Concatenates [S4096x2048x1, S4096x2048x1] S4096x2048x2 2
  shapeCasts_S4096x2048x2_S4096x4096 : S4096x2048x2.ShapeCasts S4096x4096
  shapeCasts_S4096x4096_S4096x32x128 : S4096x4096.ShapeCasts S4096x32x128
  bcast_S4096x32_S4096x32x1_0_1 : S4096x32.BroadcastsInDim S4096x32x1 (![0, 1] : Fin 2 → Fin S4096x32x1.rank)
  bcast_S4096x32x1_S4096x32x128_0_1_2 : S4096x32x1.BroadcastsInDim S4096x32x128 (![0, 1, 2] : Fin 3 → Fin S4096x32x128.rank)
  shapeCasts_S4096x32x128_S4096x4096 : S4096x32x128.ShapeCasts S4096x4096
  shapeCasts_S4096_S1x4096 : S4096.ShapeCasts S1x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S8192x4096_S4x2048x4096 : S8192x4096.ShapeCasts S4x2048x4096
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x4096.size a
  hwx0_3 : ∀ i : grid0.Coords, EltTy.bits .f32 = 32 ∨ (Rect.block (s := S8192x4096) S1024x512.size (cc0_transform_3 i) (hinb0_3 i)).WholeWords (EltTy.packing .f32)

variable [Facts₀]

def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_v1) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x2048 : Shape := ⟨2, ![4096, 2048]⟩
abbrev S4096x32 : Shape := ⟨2, ![4096, 32]⟩
abbrev S4096 : Shape := ⟨1, ![4096]⟩
abbrev S_ : Shape := ⟨0, ![]⟩
abbrev S4096x2048x1 : Shape := ⟨3, ![4096, 2048, 1]⟩
abbrev S4096x2048x2 : Shape := ⟨3, ![4096, 2048, 2]⟩
abbrev S4096x4096 : Shape := ⟨2, ![4096, 4096]⟩
abbrev S4096x32x128 : Shape := ⟨3, ![4096, 32, 128]⟩
abbrev S4096x32x1 : Shape := ⟨3, ![4096, 32, 1]⟩
abbrev S1x1x4096 : Shape := ⟨3, ![1, 1, 4096]⟩

abbrev nBuf : Space → Nat
  | .hbm => 34
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x2048, .i32⟩
  | .hbm, ⟨2, _⟩ => ⟨S4096x32, .f32⟩
  | .hbm, ⟨3, _⟩ => ⟨S4096x32, .f32⟩
  | .hbm, ⟨4, _⟩ => ⟨S4096, .f32⟩
  | .hbm, ⟨5, _⟩ => ⟨S_, .i32⟩
  | .hbm, ⟨6, _⟩ => ⟨S4096x2048, .i32⟩
  | .hbm, ⟨7, _⟩ => ⟨S4096x2048, .i32⟩
  | .hbm, ⟨8, _⟩ => ⟨S_, .i32⟩
  | .hbm, ⟨9, _⟩ => ⟨S4096x2048, .i32⟩
  | .hbm, ⟨10, _⟩ => ⟨S4096x2048, .i32⟩
  | .hbm, ⟨11, _⟩ => ⟨S_, .i32⟩
  | .hbm, ⟨12, _⟩ => ⟨S4096x2048, .i32⟩
  | .hbm, ⟨13, _⟩ => ⟨S4096x2048, .i32⟩
  | .hbm, ⟨14, _⟩ => ⟨S_, .i32⟩
  | .hbm, ⟨15, _⟩ => ⟨S4096x2048, .i32⟩
  | .hbm, ⟨16, _⟩ => ⟨S4096x2048, .i32⟩
  | .hbm, ⟨17, _⟩ => ⟨S_, .i32⟩
  | .hbm, ⟨18, _⟩ => ⟨S4096x2048, .i32⟩
  | .hbm, ⟨19, _⟩ => ⟨S4096x2048, .i32⟩
  | .hbm, ⟨20, _⟩ => ⟨S4096x2048x1, .i32⟩
  | .hbm, ⟨21, _⟩ => ⟨S4096x2048x1, .i32⟩
  | .hbm, ⟨22, _⟩ => ⟨S4096x2048x2, .i32⟩
  | .hbm, ⟨23, _⟩ => ⟨S4096x4096, .i32⟩
  | .hbm, ⟨24, _⟩ => ⟨S4096x4096, .f32⟩
  | .hbm, ⟨25, _⟩ => ⟨S4096x32x128, .f32⟩
  | .hbm, ⟨26, _⟩ => ⟨S4096x32x1, .f32⟩
  | .hbm, ⟨27, _⟩ => ⟨S4096x32x128, .f32⟩
  | .hbm, ⟨28, _⟩ => ⟨S4096x32x128, .f32⟩
  | .hbm, ⟨29, _⟩ => ⟨S4096x4096, .f32⟩
  | .hbm, ⟨30, _⟩ => ⟨S4x2048x4096, .f32⟩
  | .hbm, ⟨31, _⟩ => ⟨S1x1x4096, .f32⟩
  | .hbm, ⟨32, _⟩ => ⟨S4x2048x4096, .f32⟩
  | .hbm, ⟨33, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_c_2 : Ref sig .tc := ⟨.hbm, 14, rfl⟩
abbrev main_v6 : Ref sig .tc := ⟨.hbm, 15, rfl⟩
abbrev main_v7 : Ref sig .tc := ⟨.hbm, 16, rfl⟩
abbrev main_c_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  bcast_S_S4096x2048 : S_.BroadcastsInDim S4096x2048 (![] : Fin 0 → Fin S4096x2048.rank)
  bcast_S4096x2048_S4096x2048x1_0_1 : S4096x2048.BroadcastsInDim S4096x2048x1 (![0, 1] : Fin 2 → Fin S4096x2048x1.rank)
  concatenates_S4096x2048x1_S4096x2048x1_S4096x2048x2_d2 : Shape.Concatenates [S4096x2048x1, S4096x2048x1] S4096x2048x2 2
  shapeCasts_S4096x2048x2_S4096x4096 : S4096x2048x2.ShapeCasts S4096x4096
  shapeCasts_S4096x4096_S4096x32x128 : S4096x4096.ShapeCasts S4096x32x128
  bcast_S4096x32_S4096x32x1_0_1 : S4096x32.BroadcastsInDim S4096x32x1 (![0, 1] : Fin 2 → Fin S4096x32x1.rank)
  bcast_S4096x32x1_S4096x32x128_0_1_2 : S4096x32x1.BroadcastsInDim S4096x32x128 (![0, 1, 2] : Fin 3 → Fin S4096x32x128.rank)
  shapeCasts_S4096x32x128_S4096x4096 : S4096x32x128.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.DenseSpec.lean ====
/-
  The function both programs compute: a dense layer  y = x · Wᵀ + b  over the extended reals.

  With x of shape [4, 2048, 4096] (batch, position, input feature), W of shape [4096, 4096] (output feature, input
  feature) and b of shape [4096], the entry of y at (β, s, o) is  Σ_k x[β, s, k] · W[o, k]  +  b[o]  — one sum over the
  4096 input features and one addition, nothing else. `dense` states it at the three-axis shape the programs' results
  have; `denseRows` states the same map with batch and position flattened into one row axis of 8192 = 4 · 2048 rows
  and the bias held as a [1, 4096] row, which is the shape in which the blocked product is formed. `dense_of_rows`
  says the two agree once the rows are read in row-major order: row β · 2048 + s of the flat form is (β, s).
-/
import Idealize.ShloMosaic.PureOps.Ideal
import Idealize.ShloMosaic.Lib.ValueIdx

noncomputable section

namespace Cert.Dense

open Idealize.ShloMosaic Idealize.ShloMosaic.ValueIdx
open scoped BigOperators

/-- [4, 2048, 4096]: batch, position, feature. -/
abbrev SAct : Shape := ⟨3, ![4, 2048, 4096]⟩
/-- [8192, 4096]: the 8192 = 4 · 2048 rows (batch, position) flattened, feature. -/
abbrev SRows : Shape := ⟨2, ![8192, 4096]⟩
/-- [4096, 4096]: output feature, input feature. -/
abbrev SWt : Shape := ⟨2, ![4096, 4096]⟩
/-- [4096]: one bias per output feature. -/
abbrev SBias : Shape := ⟨1, ![4096]⟩
/-- [1, 4096]: the bias as a row. -/
abbrev SBiasRow : Shape := ⟨2, ![1, 4096]⟩

/-- y[β, s, o] = Σ_k x[β, s, k] · W[o, k] + b[o]. -/
def dense (x : SAct.Idx → EReal) (w : SWt.Idx → EReal) (b : SBias.Idx → EReal) : SAct.Idx → EReal :=
  fun i => (∑ k : Fin 4096, x (ix3 (i 0) (i 1) k) * w (ix2 (i 2) k)) + b (ix1 (i 2))

/-- The same over flattened rows: y[r, o] = Σ_k x[r, k] · W[o, k] + b[0, o]. -/
def denseRows (x : SRows.Idx → EReal) (w : SWt.Idx → EReal) (b : SBiasRow.Idx → EReal) : SRows.Idx → EReal :=
  fun i => (∑ k : Fin 4096, x (ix2 (i 0) k) * w (ix2 (i 1) k)) + b (ix2 (0 : Fin 1) (i 1))

/-- Row β · 2048 + s of the flattened activations is position (β, s): if the flat operands are the row-major
    re-readings of the three-axis ones (`hx`, `hb`), the flat layer read at row r = β · 2048 + s and column o is the
    layer at (β, s, o). -/
theorem dense_of_rows (x : SAct.Idx → EReal) (w : SWt.Idx → EReal) (b : SBias.Idx → EReal)
    (x' : SRows.Idx → EReal) (b' : SBiasRow.Idx → EReal)
    (hx : ∀ (β : Fin 4) (s : Fin 2048) (k : Fin 4096) (r : Fin 8192), r.val = β.val * 2048 + s.val →
      x' (ix2 r k) = x (ix3 β s k))
    (hb : ∀ o : Fin 4096, b' (ix2 (0 : Fin 1) o) = b (ix1 o))
    (β : Fin 4) (s : Fin 2048) (o : Fin 4096) (r : Fin 8192) (hr : r.val = β.val * 2048 + s.val) :
    denseRows x' w b' (ix2 r o) = dense x w b (ix3 β s o) := by
  show (∑ k : Fin 4096, x' (ix2 r k) * w (ix2 o k)) + b' (ix2 (0 : Fin 1) o)
      = (∑ k : Fin 4096, x (ix3 β s k) * w (ix2 o k)) + b (ix1 o)
  rw [hb]
  exact congrArg (· + b (ix1 o)) (Finset.sum_congr rfl fun k _ => by rw [hx β s k r hr])

end Cert.Dense

end
-- ==== Proof.RefDense.lean ====
/-
  The reference program computes the dense layer.

  Its last four operations are a `dot_general` contracting the activations' feature axis with the weight's input-feature
  axis, the bias broadcast along batch and position, and their sum. Read at an index (β, s, o) of the result, the
  `dot_general` is  Σ_k x[β, s, k] · W[o, k]  (the left operand keeps the result's first two coordinates, the right one
  takes the third as its row), the broadcast bias is b[o], and the sum of the two is `Cert.Dense.dense`. The weight W
  here is whatever the earlier operations made of the packed integers and the scales: it is carried as one term and
  never opened.
-/
import proofs.«427069_j67903432949777_3_alg».proof.Proof.Gen.ReferenceIdeal.Read
import proofs.«427069_j67903432949777_3_alg».proof.Proof.DenseSpec

noncomputable section

namespace Cert.ReferenceIdeal.RefDense

open Cert.ReferenceIdeal Cert.ReferenceIdeal.Read Idealize.ShloMosaic Idealize.ShloMosaic.ValueIdx
open scoped BigOperators

/-- The product's left operand is read at the result's (β, s) and the contraction index. -/
theorem lhs_index (i : S4x2048x4096.Idx) (k : Fin 4096) : lidx_main_v20 i k = ix3 (i 0) (i 1) k :=
  funext fun a => Fin.ext (by match a with | ⟨0, _⟩ => rfl | ⟨1, _⟩ => rfl | ⟨2, _⟩ => rfl)

/-- Its right operand is read at row o, the result's last coordinate, and the contraction index. -/
theorem rhs_index (i : S4x2048x4096.Idx) (k : Fin 4096) : ridx_main_v20 i k = ix2 (i 2) k :=
  funext fun a => Fin.ext (by match a with | ⟨0, _⟩ => rfl | ⟨1, _⟩ => rfl)

/-- The two broadcasts of the bias read it at the result's last coordinate. -/
theorem bias_index (i : S4x2048x4096.Idx) : idx_main_v21 (idx_main_v22 i) = ix1 (i 2) :=
  funext fun a => Fin.ext (by match a with | ⟨0, _⟩ => rfl)

/-- The reference's result is the dense layer of the activations, its own weight stage and the bias. -/
theorem result_eq (x0 : (⟨S4x2048x4096, .f32⟩ : BufTy).Contents (Elt Ideal)) (x1 : (⟨S4096x2048, .i32⟩ : BufTy).Contents (Elt Ideal))
    (x2 : (⟨S4096x32, .f32⟩ : BufTy).Contents (Elt Ideal)) (x4 : (⟨S4096, .f32⟩ : BufTy).Contents (Elt Ideal)) :
    val_main_v23 (F := Ideal) x0 x1 x2 x4 = Cert.Dense.dense x0 (val_main_v19 (F := Ideal) x1 x2) x4 := by
  funext i
  rw [val_main_v23_apply, val_main_v20_apply, val_main_v22_apply, val_main_v21_apply]
  simp only [lhs_index, rhs_index, bias_index, Ideal.addf_def]
  rfl

end Cert.ReferenceIdeal.RefDense

end
-- ==== Proof.KernelBlock.lean ====
/-
  One block of the kernel's product, entry by entry.

  At a grid point the body loads a [1024, 4096] block of activations, a [512, 4096] block of the weight (rows are output
  features) and a [1, 512] piece of the bias, multiplies the first by the transpose of the second into a zero accumulator,
  and adds the bias piece broadcast down the 1024 rows. Over the extended reals the entry at (p, q) of what it stores is
      Σ_k x[p, k] · w[q, k]  +  bias[0, q] :
  both operands contract their second axis, the left keeps the result's row and the right takes the result's column as
  its row; the accumulator is the real 0 and adds nothing; the casts of a block to its own shape are the identity.
-/
import proofs.«427069_j67903432949777_3_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx
open scoped BigOperators

/-- The left operand's first coordinate is the result's row. -/
theorem lhs_row (j : S1024x512.Idx) (q : dot_S1024x4096_S512x4096_S1024x512_1_1_0_0_n_n.contr.Idx) :
    (dot_S1024x4096_S512x4096_S1024x512_1_1_0_0_n_n.lhsIdx j q 0).val = (j 0).val := by
  unfold DotDims.lhsIdx
  rw [dif_neg (show ¬(0 : Fin S1024x4096.rank) ∈ dot_S1024x4096_S512x4096_S1024x512_1_1_0_0_n_n.lhsBatch by decide),
    dif_pos (show (0 : Fin S1024x4096.rank) ∈ dot_S1024x4096_S512x4096_S1024x512_1_1_0_0_n_n.lhsNonContracting by decide)]
  rfl
/-- Its second coordinate is the contraction index. -/
theorem lhs_contr (j : S1024x512.Idx) (q : dot_S1024x4096_S512x4096_S1024x512_1_1_0_0_n_n.contr.Idx) :
    (dot_S1024x4096_S512x4096_S1024x512_1_1_0_0_n_n.lhsIdx j q 1).val = (q ⟨0, by decide⟩).val :=
  dot_S1024x4096_S512x4096_S1024x512_1_1_0_0_n_n.lhsIdx_val_of_single rfl j q
/-- The right operand's first coordinate is the result's column. -/
theorem rhs_row (j : S1024x512.Idx) (q : dot_S1024x4096_S512x4096_S1024x512_1_1_0_0_n_n.contr.Idx) :
    (dot_S1024x4096_S512x4096_S1024x512_1_1_0_0_n_n.rhsIdx j q 0).val = (j 1).val := by
  unfold DotDims.rhsIdx
  rw [dif_neg (show ¬(0 : Fin S512x4096.rank) ∈ dot_S1024x4096_S512x4096_S1024x512_1_1_0_0_n_n.rhsBatch by decide),
    dif_pos (show (0 : Fin S512x4096.rank) ∈ dot_S1024x4096_S512x4096_S1024x512_1_1_0_0_n_n.rhsNonContracting by decide)]
  rfl
/-- Its second coordinate is the contraction index. -/
theorem rhs_contr (j : S1024x512.Idx) (q : dot_S1024x4096_S512x4096_S1024x512_1_1_0_0_n_n.contr.Idx) :
    (dot_S1024x4096_S512x4096_S1024x512_1_1_0_0_n_n.rhsIdx j q 1).val = (q ⟨0, by decide⟩).val :=
  dot_S1024x4096_S512x4096_S1024x512_1_1_0_0_n_n.rhsIdx_val_of_single rfl j q

/-- The product into the zero accumulator, at (p, q): the sum over the 4096 shared features of row p of the
    activations' block times row q of the weight's block. -/
theorem product_at (x : FVec Ideal S1024x4096 .bf16) (w : FVec Ideal S512x4096 .bf16) (p : Fin 1024) (q : Fin 512) :
    matmul (F := Ideal) dot_S1024x4096_S512x4096_S1024x512_1_1_0_0_n_n none x w
        (constant (F := Ideal) S1024x512 .f32 0x00000000#32) (ix2 p q)
      = ∑ k : Fin 4096, x (ix2 p k) * w (ix2 q k) := by
  simp only [matmul]
  rw [Ideal.matmul_constant_zero_apply,
    ← Equiv.sum_comp (contrEquiv1 dot_S1024x4096_S512x4096_S1024x512_1_1_0_0_n_n 4096 rfl rfl).symm]
  refine Finset.sum_congr rfl fun k _ => ?_
  have hk := contrEquiv1_symm_val dot_S1024x4096_S512x4096_S1024x512_1_1_0_0_n_n 4096 rfl rfl k
  have el : dot_S1024x4096_S512x4096_S1024x512_1_1_0_0_n_n.lhsIdx (ix2 p q)
      ((contrEquiv1 dot_S1024x4096_S512x4096_S1024x512_1_1_0_0_n_n 4096 rfl rfl).symm k) = ix2 p k :=
    funext fun a => Fin.ext (by
      match a with
      | ⟨0, _⟩ => exact lhs_row _ _
      | ⟨1, _⟩ => exact (lhs_contr _ _).trans hk)
  have er : dot_S1024x4096_S512x4096_S1024x512_1_1_0_0_n_n.rhsIdx (ix2 p q)
      ((contrEquiv1 dot_S1024x4096_S512x4096_S1024x512_1_1_0_0_n_n 4096 rfl rfl).symm k) = ix2 q k :=
    funext fun a => Fin.ext (by
      match a with
      | ⟨0, _⟩ => exact rhs_row _ _
      | ⟨1, _⟩ => exact (rhs_contr _ _).trans hk)
  rw [el, er]

/-- The bias piece broadcast down the rows, at (p, q), is its entry at (0, q). -/
theorem bias_at (b : FVec Ideal S1x512 .f32) (p : Fin 1024) (q : Fin 512) :
    broadcastTo S1024x512 b broadcasts_S1x512_S1024x512 (ix2 p q) = b (ix2 (0 : Fin 1) q) :=
  broadcastTo_apply b broadcasts_S1x512_S1024x512 (ix2 p q) (ix2 (0 : Fin 1) q) (fun a => by
    match a with
    | ⟨0, _⟩ => show (0 : Nat) = if (1 : Nat) = 1 then 0 else p.val; rw [if_pos rfl]
    | ⟨1, _⟩ => show q.val = if (512 : Nat) = 1 then 0 else q.val; rw [if_neg (by decide)])

/-- What the body stores, at (p, q): the product's entry plus the bias of column q. -/
theorem stored_at (x : FVec Ideal S1024x4096 .bf16) (w : FVec Ideal S512x4096 .bf16) (b : FVec Ideal S1x512 .f32)
    (p : Fin 1024) (q : Fin 512) :
    k0_pay1 (F := Ideal) x w b (ix2 p q) = (∑ k : Fin 4096, x (ix2 p k) * w (ix2 q k)) + b (ix2 (0 : Fin 1) q) := by
  unfold k0_pay1
  rw [shapeCast_self, shapeCast_self, shapeCast_self]
  show matmul (F := Ideal) (φ₁ := .bf16) (φ₂ := .bf16) dot_S1024x4096_S512x4096_S1024x512_1_1_0_0_n_n none x w
        (constant (F := Ideal) S1024x512 .f32 0x00000000#32) (ix2 p q)
      + broadcastTo S1024x512 b broadcasts_S1x512_S1024x512 (ix2 p q) = _
  rw [product_at, bias_at]

end Cert.KernelIdeal.Block

end
-- ==== Proof.KernelProduct.lean ====
/-
  From the 64 blocks to the whole product.

  The region runs an 8 × 8 grid. At point (i, j) the output block is rows 1024·i … 1024·i + 1023 and columns
  512·j … 512·j + 511 of the [8192, 4096] result; the activations' block is the same rows, all 4096 features; the weight's
  block is rows 512·j … of the weight (the output features of this column block), all features; the bias piece is columns
  512·j … of the bias row. So entry (p, q) of the block written at (i, j), which is
      Σ_k xblock[p, k] · wblock[q, k] + biasblock[0, q],
  is entry (1024·i + p, 512·j + q) of  `denseRows` of the three arrays as the region finds them: every block is a
  restriction of that one whole-array function. The 64 output blocks tile the result (row r lies in block row r / 1024,
  column o in block column o / 512), so after the run the result array is `denseRows` of the three arrays.
-/
import proofs.«427069_j67903432949777_3_alg».proof.Proof.Gen.KernelIdeal.Frame
import proofs.«427069_j67903432949777_3_alg».proof.Proof.KernelBlock
import proofs.«427069_j67903432949777_3_alg».proof.Proof.DenseSpec
import Idealize.ShloMosaic.Lib.Pipeline.Value

noncomputable section

namespace Cert.KernelIdeal.Product

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ) (ρ : Dev nD → PrngReg)

/-- The activations as the region finds them: 8192 rows of 4096 features. -/
abbrev acts (c : Dev nD) : FVec Ideal S8192x4096 .bf16 := V m c main_v1
/-- The weight as the region finds it: 4096 output features by 4096 input features. -/
abbrev wts (c : Dev nD) : FVec Ideal S4096x4096 .bf16 := V m c main_v22
/-- The bias as the region finds it: one row of 4096. -/
abbrev biasRow (c : Dev nD) : FVec Ideal S1x4096 .f32 := V m c main_v23

theorem origin : (![0, 0] : Fin 2 → Nat) = fun _ => 0 := funext fun a => by fin_cases a <;> rfl

/-- The block indices over the grid: the activations move with the output's block row and stay at feature block 0,
    the weight's block row is the output's block column, the bias piece moves with the output's block column, and
    the output's block indices stay below 8. -/
theorem block_indices : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 7 ∧ win0_3.index t (1 : Fin 2) ≤ 7 :=
  (by decide +kernel : ∀ t : Fin grid0.N, _)

/-- Every one of the 8 × 8 output blocks is some point's. -/
theorem block_onto : ∀ (q0 : Fin 8) (q1 : Fin 8), ∃ t : Fin cfg0.N, win0_3.index t = ![q0.val, q1.val] :=
  (by decide +kernel : ∀ (q0 : Fin 8) (q1 : Fin 8), ∃ t : Fin grid0.N, win0_3.index t = ![q0.val, q1.val])

/-- What point `t` writes back is block `t` of the dense layer over rows of the three arrays. -/
theorem flushed_eq (c : Dev nD) (t : Fin cfg0.N) :
    (dats m 0 c).flushed 3 t
      = ((cfg0.win 3).blk t).view.read (Elt Ideal) (Cert.Dense.denseRows (acts m c) (wts m c) (biasRow m c)) := by
  show (cfg0.win 3).cut (grid0.coords t) ((dats m 0 c).after 3 t) = _
  rw [after0_3]
  unfold out0_3
  rw [View.canon_unit_zero origin]
  simp only [View.ld_unit_zero (S := S1024x4096) origin, View.ld_unit_zero (S := S512x4096) origin,
    View.ld_unit_zero (S := S1x512) origin]
  obtain ⟨e0, e1, e2, e3, e4, e5, e6, e7⟩ := block_indices t
  funext j
  obtain ⟨p, q, rfl⟩ : ∃ (p : Fin 1024) (q : Fin 512), j = ix2 p q := ⟨j 0, j 1, eq_ix2 j⟩
  show k0_pay1 (F := Ideal) (iblk m c 0 t) (iblk m c 1 t) (iblk m c 2 t) (ix2 p q)
      = Cert.Dense.denseRows (acts m c) (wts m c) (biasRow m c) (((cfg0.win 3).blk t).view.emb (ix2 p q))
  refine (Cert.KernelIdeal.Block.stored_at (iblk m c 0 t) (iblk m c 1 t) (iblk m c 2 t) p q).trans ?_
  have hr : win0_3.index t (0 : Fin 2) * 1024 + p.val < 8192 := by have := p.isLt; omega
  have ho : win0_3.index t (1 : Fin 2) * 512 + q.val < 4096 := by have := q.isLt; omega
  have h3 : ((cfg0.win 3).blk t).view.emb (ix2 p q)
      = ix2 (⟨win0_3.index t (0 : Fin 2) * 1024 + p.val, hr⟩ : Fin 8192) (⟨win0_3.index t (1 : Fin 2) * 512 + q.val, ho⟩ : Fin 4096) := by
    funext a; apply Fin.ext
    match a with
    | ⟨0, _⟩ => show win0_3.index t (0 : Fin 2) * 1024 + 1 * p.val = win0_3.index t (0 : Fin 2) * 1024 + p.val; omega
    | ⟨1, _⟩ => show win0_3.index t (1 : Fin 2) * 512 + 1 * q.val = win0_3.index t (1 : Fin 2) * 512 + q.val; omega
  have h0 : ∀ k : Fin 4096, ((cfg0.win 0).blk t).view.emb (ix2 p k)
      = ix2 (⟨win0_3.index t (0 : Fin 2) * 1024 + p.val, hr⟩ : Fin 8192) k := fun k => by
    funext a; apply Fin.ext
    match a with
    | ⟨0, _⟩ => show win0_0.index t (0 : Fin 2) * 1024 + 1 * p.val = win0_3.index t (0 : Fin 2) * 1024 + p.val; omega
    | ⟨1, _⟩ => show win0_0.index t (1 : Fin 2) * 4096 + 1 * k.val = k.val; omega
  have h1 : ∀ k : Fin 4096, ((cfg0.win 1).blk t).view.emb (ix2 q k)
      = ix2 (⟨win0_3.index t (1 : Fin 2) * 512 + q.val, ho⟩ : Fin 4096) k := fun k => by
    funext a; apply Fin.ext
    match a with
    | ⟨0, _⟩ => show win0_1.index t (0 : Fin 2) * 512 + 1 * q.val = win0_3.index t (1 : Fin 2) * 512 + q.val; omega
    | ⟨1, _⟩ => show win0_1.index t (1 : Fin 2) * 4096 + 1 * k.val = k.val; omega
  have h2 : ((cfg0.win 2).blk t).view.emb (ix2 (0 : Fin 1) q)
      = ix2 (0 : Fin 1) (⟨win0_3.index t (1 : Fin 2) * 512 + q.val, ho⟩ : Fin 4096) := by
    funext a; apply Fin.ext
    match a with
    | ⟨0, _⟩ => show win0_2.index t (0 : Fin 2) * 1 + 1 * 0 = 0; omega
    | ⟨1, _⟩ => show win0_2.index t (1 : Fin 2) * 512 + 1 * q.val = win0_3.index t (1 : Fin 2) * 512 + q.val; omega
  rw [h3]
  show (∑ k : Fin 4096, acts m c (((cfg0.win 0).blk t).view.emb (ix2 p k)) * wts m c (((cfg0.win 1).blk t).view.emb (ix2 q k)))
        + biasRow m c (((cfg0.win 2).blk t).view.emb (ix2 (0 : Fin 1) q))
      = (∑ k : Fin 4096, acts m c (ix2 (⟨win0_3.index t (0 : Fin 2) * 1024 + p.val, hr⟩ : Fin 8192) k)
            * wts m c (ix2 (⟨win0_3.index t (1 : Fin 2) * 512 + q.val, ho⟩ : Fin 4096) k))
        + biasRow m c (ix2 (0 : Fin 1) (⟨win0_3.index t (1 : Fin 2) * 512 + q.val, ho⟩ : Fin 4096))
  rw [h2]
  exact congrArg (· + biasRow m c (ix2 (0 : Fin 1) (⟨win0_3.index t (1 : Fin 2) * 512 + q.val, ho⟩ : Fin 4096)))
    (Finset.sum_congr rfl fun k _ => by rw [h0 k, h1 k])

/-- An entry of the result lies in point `t`'s block iff each coordinate lies in the block's range on its axis. -/
theorem mem_block (t : Fin cfg0.N) (i : S8192x4096.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v24).slice (win0_3.rect t)).set ↔ _
  rw [View.set_slice_whole, Rect.mem_set_unit]
  exact Iff.rfl

/-- The 64 blocks tile the result: entry (r, o) lies in the block of block row r / 1024 and block column o / 512. -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := block_onto ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_block]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- After the run the result array is the dense layer over rows of the three arrays the region found. -/
theorem result_rows (c : Dev nD) :
    (dats m 0 c).arrAt 3 cfg0.N = Cert.Dense.denseRows (acts m c) (wts m c) (biasRow m c) :=
  (dats m 0 c).arrAt_eq_of_cover 3 _ (fun t _ => flushed_eq m c t) (covered)

end Cert.KernelIdeal.Product

end
-- ==== Proof.KernelAround.lean ====
/-
  Around the region: the operands are re-readings of the inputs, and the result a re-reading of the product.

  Before the region the program flattens the activations [4, 2048, 4096] to [8192, 4096] (and narrows them, which over
  the extended reals changes nothing), so row β · 2048 + s holds position (β, s); it makes the bias a [1, 4096] row. After
  the region it reads the [8192, 4096] product back as [4, 2048, 4096] in the same row-major order. All three are
  reshapes: an entry moves to the entry with the same row-major rank. Hence the program's result at (β, s, o) is the
  product's entry at (β · 2048 + s, o), which by the block-by-block account is
      Σ_k x[β, s, k] · W[o, k] + b[o]
  with W the weight array as the region found it.
-/
import proofs.«427069_j67903432949777_3_alg».proof.Proof.KernelProduct
import Idealize.ShloMosaic.Lib.StableHlo.Run

noncomputable section

namespace Cert.KernelIdeal.Around

open Cert.KernelIdeal Cert.KernelIdeal.Gen Cert.KernelIdeal.Product Idealize.ShloMosaic Idealize.ShloMosaic.TcCoe Idealize.SL.Sem
open Idealize.ShloMosaic.ValueIdx Idealize.ShloMosaic.StableHlo
open Idealize.ShloMosaic.Pipeline (Dat)
open scoped BigOperators

variable (m : (ℓ : Loc nD τ sig) → Buf (Elt Ideal) ℓ) (ρ : Dev nD → PrngReg)

/-- The activations as launched. -/
abbrev input (c : Dev nD) : FVec Ideal S4x2048x4096 .f32 := m ((c : Thread nD τ).loc main_arg0)
/-- The bias as launched. -/
abbrev bias (c : Dev nD) : FVec Ideal S4096 .f32 := m ((c : Thread nD τ).loc main_arg4)

/-- The region finds the activations flattened to rows. -/
theorem acts_eq (c : Dev nD) :
    acts m c = truncf .bf16 (shapeCast S8192x4096 (input m c) shapeCasts_S4x2048x4096_S8192x4096) bitsLt_bf16_f32 := by
  show StableHlo.after hostOps0 (fun b => m (c, b)) (Proc.devRef .tc main_v1) = _
  after_results
  rfl

/-- Row β · 2048 + s of them is position (β, s) of the input. -/
theorem acts_at (c : Dev nD) (β : Fin 4) (s : Fin 2048) (k : Fin 4096) (r : Fin 8192) (hr : r.val = β.val * 2048 + s.val) :
    acts m c (ix2 r k) = input m c (ix3 β s k) := by
  rw [acts_eq]
  show shapeCast S8192x4096 (input m c) shapeCasts_S4x2048x4096_S8192x4096 (ix2 r k) = _
  exact shapeCast_apply (input m c) shapeCasts_S4x2048x4096_S8192x4096 (ix2 r k) (ix3 β s k)
    (by rewrite [Shape.rowMajor_val_three, Shape.rowMajor_val_two]
        show (β.val * 2048 + s.val) * 4096 + k.val = r.val * 4096 + k.val
        rw [hr])

/-- The region finds the bias as one row. -/
theorem biasRow_eq (c : Dev nD) : biasRow m c = shapeCast S1x4096 (bias m c) shapeCasts_S4096_S1x4096 := by
  show StableHlo.after hostOps0 (fun b => m (c, b)) (Proc.devRef .tc main_v23) = _
  after_results
  rfl

/-- Its entry at column o is the bias of output feature o. -/
theorem biasRow_at (c : Dev nD) (o : Fin 4096) : biasRow m c (ix2 (0 : Fin 1) o) = bias m c (ix1 o) := by
  rw [biasRow_eq]
  exact shapeCast_apply (bias m c) shapeCasts_S4096_S1x4096 (ix2 (0 : Fin 1) o) (ix1 o)
    (by rewrite [Shape.rowMajor_val_one, Shape.rowMajor_val_two]
        show o.val = 0 * 4096 + o.val
        omega)

/-- The program's result is the region's array read back at three axes. -/
theorem result_eq_reshape (c : Dev nD) :
    Pipeline.afterTail₀ cfgs (dats m) 0 (V0 m) [hostOps1] c main_v25
      = shapeCast S4x2048x4096 ((dats m 0 c).arrAt 3 cfg0.N) shapeCasts_S8192x4096_S4x2048x4096 := by
  unfold Pipeline.afterTail₀
  show StableHlo.after hostOps1 _ (Proc.devRef .tc main_v25) = _
  after_results
  rw [Pipeline.withArrays_arr spec0 launch0.win.arr_inj c _ _ 3]
  rfl

/-- The program's result is the dense layer of the input, the weight the region found, and the bias. -/
theorem result_dense (c : Dev nD) :
    Pipeline.afterTail₀ cfgs (dats m) 0 (V0 m) [hostOps1] c main_v25
      = Cert.Dense.dense (input m c) (wts m c) (bias m c) := by
  rw [result_eq_reshape, result_rows]
  funext i
  obtain ⟨β, s, o, rfl⟩ : ∃ (β : Fin 4) (s : Fin 2048) (o : Fin 4096), i = ix3 β s o := ⟨i 0, i 1, i 2, eq_ix3 i⟩
  have hr : β.val * 2048 + s.val < 8192 := by have := β.isLt; have := s.isLt; omega
  refine (shapeCast_apply (Cert.Dense.denseRows (acts m c) (wts m c) (biasRow m c)) shapeCasts_S8192x4096_S4x2048x4096
    (ix3 β s o) (ix2 (⟨β.val * 2048 + s.val, hr⟩ : Fin 8192) o)
    (by rewrite [Shape.rowMajor_val_two, Shape.rowMajor_val_three]; rfl)).trans ?_
  exact Cert.Dense.dense_of_rows (input m c) (wts m c) (bias m c) (acts m c) (biasRow m c)
    (fun β s k r hr => acts_at m c β s k r hr) (fun o => biasRow_at m c o) β s o ⟨β.val * 2048 + s.val, hr⟩ rfl

end Cert.KernelIdeal.Around

end
-- ==== Proof.KernelWeight.lean ====
/-
  The weight the region finds is the reference's weight.

  Both programs build the [4096, 4096] weight from the packed integers and the per-group scales by the same operations
  in the same order: the low four bits of a packed word minus 8, and the next four bits (shift right by 4, keep four
  bits) minus 8, laid side by side as the even and odd input features; converted to a real; the 4096 features of a row
  cut into 32 groups of 128 and each group multiplied by its scale. The kernel's program then narrows the weight, which
  over the extended reals is the identity. `unpackScale` is that chain written once; the region's weight array is it
  (reading the program's lines before the region one at a time), and the reference's weight stage is the same term.
-/
import proofs.«427069_j67903432949777_3_alg».proof.Proof.KernelProduct
import proofs.«427069_j67903432949777_3_alg».proof.Proof.Gen.ReferenceIdeal.Read
import Idealize.ShloMosaic.Lib.StableHlo.Run

noncomputable section

namespace Cert.KernelIdeal.Weight

open Cert.KernelIdeal Cert.KernelIdeal.Gen Cert.KernelIdeal.Product Idealize.ShloMosaic Idealize.ShloMosaic.TcCoe Idealize.SL.Sem
open Idealize.ShloMosaic.StableHlo

variable {F : FTy → Type} [FloatOps F]

/-- The unpacked, scaled weight: entry (o, 2·j) is ((packed[o, j] AND 15) − 8) · scale[o, (2·j) / 128] and entry
    (o, 2·j + 1) is (((packed[o, j] shifted right 4) AND 15) − 8) · scale[o, (2·j + 1) / 128], as the chain of array
    operations that computes it. -/
def unpackScale (packed : (⟨S4096x2048, .i32⟩ : BufTy).Contents (Elt F)) (scales : (⟨S4096x32, .f32⟩ : BufTy).Contents (Elt F)) :
    (⟨S4096x4096, .f32⟩ : BufTy).Contents (Elt F) :=
  shapeCast _ (mulf (shapeCast _ (sitofp .f32 (shapeCast _ (concatenate S4096x2048x2 2
      [⟨S4096x2048x1, (broadcastInDim S4096x2048x1 ![0, 1] bcast_S4096x2048_S4096x2048x1_0_1
          (subi (andi packed (broadcastInDim S4096x2048 ![] bcast_S_S4096x2048 (constantI S_ 32 15#32)))
            (broadcastInDim S4096x2048 ![] bcast_S_S4096x2048 (constantI S_ 32 8#32))))⟩,
       ⟨S4096x2048x1, (broadcastInDim S4096x2048x1 ![0, 1] bcast_S4096x2048_S4096x2048x1_0_1
          (subi (andi (Host.shrsi packed (broadcastInDim S4096x2048 ![] bcast_S_S4096x2048 (constantI S_ 32 4#32)))
              (broadcastInDim S4096x2048 ![] bcast_S_S4096x2048 (constantI S_ 32 15#32)))
            (broadcastInDim S4096x2048 ![] bcast_S_S4096x2048 (constantI S_ 32 8#32))))⟩]
      concatenates_S4096x2048x1_S4096x2048x1_S4096x2048x2_d2) shapeCasts_S4096x2048x2_S4096x4096))
      shapeCasts_S4096x4096_S4096x32x128)
    (broadcastInDim S4096x32x128 ![0, 1, 2] bcast_S4096x32x1_S4096x32x128_0_1_2
      (broadcastInDim S4096x32x1 ![0, 1] bcast_S4096x32_S4096x32x1_0_1 scales))) shapeCasts_S4096x32x128_S4096x4096

variable (m : (ℓ : Loc nD τ sig) → Buf (Elt Ideal) ℓ)

set_option maxHeartbeats 2000000 in
/-- The region finds the weight at the chain's value on the launched packed words and scales (narrowed). -/
theorem wts_eq (c : Dev nD) :
    wts m c = truncf .bf16 (unpackScale (F := Ideal) (m ((c : Thread nD τ).loc main_arg1)) (m ((c : Thread nD τ).loc main_arg2)))
      bitsLt_bf16_f32 := by
  show StableHlo.after hostOps0 (fun b => m (c, b)) (Proc.devRef .tc main_v22) = _
  after_results
  rfl

/-- The reference's weight stage is the same chain. -/
theorem unpackScale_eq_reference (packed : (⟨S4096x2048, .i32⟩ : BufTy).Contents (Elt Ideal))
    (scales : (⟨S4096x32, .f32⟩ : BufTy).Contents (Elt Ideal)) :
    unpackScale (F := Ideal) packed scales = Cert.ReferenceIdeal.Read.val_main_v19 (F := Ideal) packed scales := rfl

/-- So the weight the region finds is the reference's weight of the launched packed words and scales. -/
theorem wts_reference (c : Dev nD) :
    wts m c = Cert.ReferenceIdeal.Read.val_main_v19 (F := Ideal) (m ((c : Thread nD τ).loc main_arg1)) (m ((c : Thread nD τ).loc main_arg2)) :=
  (wts_eq m c).trans (unpackScale_eq_reference _ _)

end Cert.KernelIdeal.Weight

end
-- ==== Proof.KernelWhole.lean ====
/-
  The kernel program's run, with its result named.

  Every execution of the program ends with its result array holding the dense layer
      y[β, s, o] = Σ_k x[β, s, k] · W[o, k] + b[o]
  of the launched activations x, the launched bias b, and the weight W that the reference, too, builds from the launched
  packed words and scales; the five argument arrays end as launched. The result is a buffer the region does not stage,
  written by the one line after the region; the arguments are buffers no line writes.
-/
import proofs.«427069_j67903432949777_3_alg».proof.Proof.KernelAround
import proofs.«427069_j67903432949777_3_alg».proof.Proof.KernelWeight

noncomputable section

namespace Cert.KernelIdeal.Whole

open Cert.KernelIdeal Cert.KernelIdeal.Gen Cert.KernelIdeal.Product Cert.KernelIdeal.Around Cert.KernelIdeal.Weight
open Idealize.ShloMosaic Idealize.ShloMosaic.TcCoe Idealize.SL.Sem

variable (m : (ℓ : Loc nD τ sig) → Buf (Elt Ideal) ℓ) (ρ : Dev nD → PrngReg)

/-- The value the program's result ends at on core `c`. -/
def result (c : Dev nD) : FVec Ideal S4x2048x4096 .f32 :=
  Cert.Dense.dense (input m c)
    (Cert.ReferenceIdeal.Read.val_main_v19 (F := Ideal) (m ((c : Thread nD τ).loc main_arg1)) (m ((c : Thread nD τ).loc main_arg2)))
    (bias m c)

theorem run : θ_run defs (onTc (τ := τ) (main (F := Ideal))) ⟨m, fun _ => 0, ρ⟩ (fun r => ∀ c : Dev nD,
      r.2.mem ((c.tc : Thread nD τ).loc main_v25) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v25 (Pipeline.mem_restRefs_of main_v25 (by decide) (by decide))).trans
        ((result_dense m c).trans (by unfold result; rw [wts_reference])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Whole

end
-- ==== Proof.lean ====
/-
  A quantized dense layer against its plain reference, over the extended reals.

  Both programs unpack a [4096, 2048] array of packed 4-bit pairs into a [4096, 4096] integer weight (low four bits minus
  8 on the even input features, the next four bits minus 8 on the odd ones), scale each group of 128 input features of a
  row by that group's scale, and apply the layer  y = x · Wᵀ + b  to activations x of shape [4, 2048, 4096].

  The reference applies the layer as one contraction over the feature axis and one broadcast addition. The kernel's
  program flattens x to 8192 rows, forms the product on an 8 × 8 grid of [1024, 512] output blocks — each block the full
  4096-term inner products of 1024 rows of x with 512 rows of W, plus the matching 512 entries of b — and reads the
  [8192, 4096] product back at three axes. Over the extended reals narrowing a value changes nothing and a blocked
  product is the product: both results are, entry by entry,
      y[β, s, o] = Σ_k x[β, s, k] · W[o, k] + b[o]
  with the same W, since the two weight computations are the same chain of operations. No sum is regrouped and no factor
  is moved across a sum, so the inputs' finiteness is not used.

  The three programs' runs terminate with their arguments unchanged (the kernels' by their generated frames, the
  reference's by its generated run); the idealization rewrote no operation, so it has nothing to preserve.
-/
import proofs.«427069_j67903432949777_3_alg».proof.Defs
import proofs.«427069_j67903432949777_3_alg».proof.Proof.Gen.Kernel
import proofs.«427069_j67903432949777_3_alg».proof.Proof.Gen.Kernel.Skeleton
import proofs.«427069_j67903432949777_3_alg».proof.Proof.Gen.Kernel.Launch
import proofs.«427069_j67903432949777_3_alg».proof.Proof.Gen.Kernel.Points
import proofs.«427069_j67903432949777_3_alg».proof.Proof.Gen.Kernel.Frame
import proofs.«427069_j67903432949777_3_alg».proof.Proof.Gen.KernelIdeal
import proofs.«427069_j67903432949777_3_alg».proof.Proof.Gen.KernelIdeal.Skeleton
import proofs.«427069_j67903432949777_3_alg».proof.Proof.Gen.KernelIdeal.Launch
import proofs.«427069_j67903432949777_3_alg».proof.Proof.Gen.KernelIdeal.Points
import proofs.«427069_j67903432949777_3_alg».proof.Proof.Gen.KernelIdeal.Frame
import proofs.«427069_j67903432949777_3_alg».proof.Proof.Gen.ReferenceIdeal
import proofs.«427069_j67903432949777_3_alg».proof.Proof.Gen.Pre_finite_inputs
import proofs.«427069_j67903432949777_3_alg».proof.Proof.Gen.ReferenceIdeal.Run
import proofs.«427069_j67903432949777_3_alg».proof.Proof.Gen.ReferenceIdeal.Read
import proofs.«427069_j67903432949777_3_alg».proof.Proof.RefDense
import proofs.«427069_j67903432949777_3_alg».proof.Proof.KernelWhole
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the five arguments both programs end at the dense layer of the activations, the weight
    built from the packed words and the scales, and the bias. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v23_eq _ _ _ _).trans ((Cert.ReferenceIdeal.RefDense.result_eq _ _ _ _).trans ?_)
  rw [(hagree c).1, (hagree c).2.1, (hagree c).2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
